-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S66048x1024 : Shape := ⟨2, ![66048, 1024]⟩
abbrev S8x1024x1024 : Shape := ⟨3, ![8, 1024, 1024]⟩
abbrev S_ : Shape := ⟨0, ![]⟩

class Facts : Prop where
  bcast_S_S66048x1024 : S_.BroadcastsInDim S66048x1024 (![] : Fin 0 → Fin S66048x1024.rank)
  reducesTo_S66048x1024_S_d0_1 : S66048x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_

variable [Facts]

def fn {F : FTy → Type} [FloatOps F] (main_arg0 : FVec F S66048x1024 .f32) (main_arg1 : FVec F S8x1024x1024 .f32) : IVec S_ 1 :=
  let main_v0 : FVec F S66048x1024 .f32 := Host.absf main_arg0
  let main_cst : FVec F S_ .f32 := constant S_ .f32 0x7F800000#32
  let main_v1 : FVec F S66048x1024 .f32 := broadcastInDim S66048x1024 ![] bcast_S_S66048x1024 main_cst
  let main_v2 : IVec S66048x1024 1 := cmpf .olt main_v0 main_v1
  let main_c : IVec S_ 1 := constantI S_ 1 1#1
  let main_v3 : IVec S_ 1 := (fun x v => Host.reduce IntOp.andi x v reducesTo_S66048x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  main_v8
-- ==== Kernel.lean ====
abbrev S66048x1024 : Shape := ⟨2, ![66048, 1024]⟩
abbrev S8x1024x1024 : Shape := ⟨3, ![8, 1024, 1024]⟩
abbrev S129 : Shape := ⟨1, ![129]⟩
abbrev S512x1024 : Shape := ⟨2, ![512, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 3
  | .vmem => 6
  | .smem => 1
  | _ => 0

abbrev bufTy : (tb : Table) → Fin (tcTables nBuf tb) → BufTy
  | .hbm, ⟨0, _⟩ => ⟨S66048x1024, .f32⟩
  | .hbm, ⟨1, _⟩ => ⟨S8x1024x1024, .f32⟩
  | .hbm, ⟨2, _⟩ => ⟨S66048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S512x1024, .f32⟩
  | .local _ .vmem, ⟨5, _⟩ => ⟨S512x1024, .f32⟩
  | .local _ .smem, ⟨0, _⟩ => ⟨S129, .i32⟩
  | _, _ => ⟨S66048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![129], ![false]⟩

abbrev pre0 : Pipeline.Prefetch sig := ⟨1, ![main_call0_c.idx], fun | 0 => main_call0_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S129.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S129) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S129.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S66048x1024.size a
  hwx0_0 : ∀ i : grid0.Coords, EltTy.bits .f32 = 32 ∨ (Rect.block (s := S66048x1024) S512x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S66048x1024.size a
  hwx0_2 : ∀ i : grid0.Coords, EltTy.bits .f32 = 32 ∨ (Rect.block (s := S66048x1024) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S512x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v0) S512x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .f32 = 32 ∨ (Rect.block (s := S8x1024x1024) S1x1024x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S66048x1024 : Shape := ⟨2, ![66048, 1024]⟩
abbrev S8x1024x1024 : Shape := ⟨3, ![8, 1024, 1024]⟩
abbrev S12288x1024 : Shape := ⟨2, ![12288, 1024]⟩
abbrev S1x1024x1024 : Shape := ⟨3, ![1, 1024, 1024]⟩
abbrev S1024x1024 : Shape := ⟨2, ![1024, 1024]⟩
abbrev S10240x1024 : Shape := ⟨2, ![10240, 1024]⟩
abbrev S9216x1024 : Shape := ⟨2, ![9216, 1024]⟩
abbrev S8192x1024 : Shape := ⟨2, ![8192, 1024]⟩
abbrev S7168x1024 : Shape := ⟨2, ![7168, 1024]⟩
abbrev S6144x1024 : Shape := ⟨2, ![6144, 1024]⟩
abbrev S5632x1024 : Shape := ⟨2, ![5632, 1024]⟩

abbrev nBuf : Space → Nat
  | .hbm => 35
  | .vmem => 0
  | .smem => 0
  | _ => 0

abbrev bufTy : (tb : Table) → Fin (tcTables nBuf tb) → BufTy
  | .hbm, ⟨0, _⟩ => ⟨S66048x1024, .f32⟩
  | .hbm, ⟨1, _⟩ => ⟨S8x1024x1024, .f32⟩
  | .hbm, ⟨2, _⟩ => ⟨S12288x1024, .f32⟩
  | .hbm, ⟨3, _⟩ => ⟨S1x1024x1024, .f32⟩
  | .hbm, ⟨4, _⟩ => ⟨S1024x1024, .f32⟩
  | .hbm, ⟨5, _⟩ => ⟨S12288x1024, .f32⟩
  | .hbm, ⟨6, _⟩ => ⟨S10240x1024, .f32⟩
  | .hbm, ⟨7, _⟩ => ⟨S1x1024x1024, .f32⟩
  | .hbm, ⟨8, _⟩ => ⟨S1024x1024, .f32⟩
  | .hbm, ⟨9, _⟩ => ⟨S10240x1024, .f32⟩
  | .hbm, ⟨10, _⟩ => ⟨S9216x1024, .f32⟩
  | .hbm, ⟨11, _⟩ => ⟨S1x1024x1024, .f32⟩
  | .hbm, ⟨12, _⟩ => ⟨S1024x1024, .f32⟩
  | .hbm, ⟨13, _⟩ => ⟨S9216x1024, .f32⟩
  | .hbm, ⟨14, _⟩ => ⟨S8192x1024, .f32⟩
  | .hbm, ⟨15, _⟩ => ⟨S1x1024x1024, .f32⟩
  | .hbm, ⟨16, _⟩ => ⟨S1024x1024, .f32⟩
  | .hbm, ⟨17, _⟩ => ⟨S8192x1024, .f32⟩
  | .hbm, ⟨18, _⟩ => ⟨S7168x1024, .f32⟩
  | .hbm, ⟨19, _⟩ => ⟨S1x1024x1024, .f32⟩
  | .hbm, ⟨20, _⟩ => ⟨S1024x1024, .f32⟩
  | .hbm, ⟨21, _⟩ => ⟨S7168x1024, .f32⟩
  | .hbm, ⟨22, _⟩ => ⟨S7168x1024, .f32⟩
  | .hbm, ⟨23, _⟩ => ⟨S1x1024x1024, .f32⟩
  | .hbm, ⟨24, _⟩ => ⟨S1024x1024, .f32⟩
  | .hbm, ⟨25, _⟩ => ⟨S7168x1024, .f32⟩
  | .hbm, ⟨26, _⟩ => ⟨S6144x1024, .f32⟩
  | .hbm, ⟨27, _⟩ => ⟨S1x1024x1024, .f32⟩
  | .hbm, ⟨28, _⟩ => ⟨S1024x1024, .f32⟩
  | .hbm, ⟨29, _⟩ => ⟨S6144x1024, .f32⟩
  | .hbm, ⟨30, _⟩ => ⟨S5632x1024, .f32⟩
  | .hbm, ⟨31, _⟩ => ⟨S1x1024x1024, .f32⟩
  | .hbm, ⟨32, _⟩ => ⟨S1024x1024, .f32⟩
  | .hbm, ⟨33, _⟩ => ⟨S5632x1024, .f32⟩
  | .hbm, ⟨34, _⟩ => ⟨S66048x1024, .f32⟩
  | _, _ => ⟨S66048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩

abbrev nD : Nat := 1
abbrev τ : Topo := Topo.v7x

variable {F : FTy → Type} [FloatOps F]

class Facts₀ : Prop where
  slices_S66048x1024_S12288x1024_0_0 : S66048x1024.Slices ![0, 0] S12288x1024
  slices_S8x1024x1024_S1x1024x1024_0_0_0 : S8x1024x1024.Slices ![0, 0, 0] S1x1024x1024
  shapeCasts_S1x1024x1024_S1024x1024 : S1x1024x1024.ShapeCasts S1024x1024
  slices_S66048x1024_S10240x1024_12288_0 : S66048x1024.Slices ![12288, 0] S10240x1024
  slices_S8x1024x1024_S1x1024x1024_1_0_0 : S8x1024x1024.Slices ![1, 0, 0] S1x1024x1024
  slices_S66048x1024_S9216x1024_22528_0 : S66048x1024.Slices ![22528, 0] S9216x1024
  slices_S8x1024x1024_S1x1024x1024_2_0_0 : S8x1024x1024.Slices ![2, 0, 0] S1x1024x1024
  slices_S66048x1024_S8192x1024_31744_0 : S66048x1024.Slices ![31744, 0] S8192x1024
  slices_S8x1024x1024_S1x1024x1024_3_0_0 : S8x1024x1024.Slices ![3, 0, 0] S1x1024x1024
  slices_S66048x1024_S7168x1024_39936_0 : S66048x1024.Slices ![39936, 0] S7168x1024
  slices_S8x1024x1024_S1x1024x1024_4_0_0 : S8x1024x1024.Slices ![4, 0, 0] S1x1024x1024
  slices_S66048x1024_S7168x1024_47104_0 : S66048x1024.Slices ![47104, 0] S7168x1024
  slices_S8x1024x1024_S1x1024x1024_5_0_0 : S8x1024x1024.Slices ![5, 0, 0] S1x1024x1024
  slices_S66048x1024_S6144x1024_54272_0 : S66048x1024.Slices ![54272, 0] S6144x1024
  slices_S8x1024x1024_S1x1024x1024_6_0_0 : S8x1024x1024.Slices ![6, 0, 0] S1x1024x1024
  slices_S66048x1024_S5632x1024_60416_0 : S66048x1024.Slices ![60416, 0] S5632x1024
  slices_S8x1024x1024_S1x1024x1024_7_0_0 : S8x1024x1024.Slices ![7, 0, 0] S1x1024x1024
  concatenates_S12288x1024_S10240x1024_S9216x1024_S8192x1024_S7168x1024_S7168x1024_S6144x1024_S5632x1024_S66048x1024_d0 : Shape.Concatenates [S12288x1024, S10240x1024, S9216x1024, S8192x1024, S7168x1024, S7168x1024, S6144x1024, S5632x1024] S66048x1024 0
  dot_S12288x1024_S1024x1024_S12288x1024_1_0_0_1_n_n_wf : DotDims.WF S12288x1024 S1024x1024 S12288x1024 [1] [0] [0] [1] [] []
  dot_S10240x1024_S1024x1024_S10240x1024_1_0_0_1_n_n_wf : DotDims.WF S10240x1024 S1024x1024 S10240x1024 [1] [0] [0] [1] [] []
  dot_S9216x1024_S1024x1024_S9216x1024_1_0_0_1_n_n_wf : DotDims.WF S9216x1024 S1024x1024 S9216x1024 [1] [0] [0] [1] [] []
  dot_S8192x1024_S1024x1024_S8192x1024_1_0_0_1_n_n_wf : DotDims.WF S8192x1024 S1024x1024 S8192x1024 [1] [0] [0] [1] [] []
  dot_S7168x1024_S1024x1024_S7168x1024_1_0_0_1_n_n_wf : DotDims.WF S7168x1024 S1024x1024 S7168x1024 [1] [0] [0] [1] [] []
  dot_S6144x1024_S1024x1024_S6144x1024_1_0_0_1_n_n_wf : DotDims.WF S6144x1024 S1024x1024 S6144x1024 [1] [0] [0] [1] [] []
  dot_S5632x1024_S1024x1024_S5632x1024_1_0_0_1_n_n_wf : DotDims.WF S5632x1024 S1024x1024 S5632x1024 [1] [0] [0] [1] [] []

variable [Facts₀]

def dot_S12288x1024_S1024x1024_S12288x1024_1_0_0_1_n_n : DotDims S12288x1024 S1024x1024 S12288x1024 where
  lhsContracting := [1]
  rhsContracting := [0]
  lhsNonContracting := [0]
  rhsNonContracting := [1]
  lhsBatch := []
  rhsBatch := []
  wf := dot_S12288x1024_S1024x1024_S12288x1024_1_0_0_1_n_n_wf
def dot_S10240x1024_S1024x1024_S10240x1024_1_0_0_1_n_n : DotDims S10240x1024 S1024x1024 S10240x1024 where
  lhsContracting := [1]
  rhsContracting := [0]
  lhsNonContracting := [0]
  rhsNonContracting := [1]
  lhsBatch := []
  rhsBatch := []
  wf := dot_S10240x1024_S1024x1024_S10240x1024_1_0_0_1_n_n_wf
def dot_S9216x1024_S1024x1024_S9216x1024_1_0_0_1_n_n : DotDims S9216x1024 S1024x1024 S9216x1024 where
  lhsContracting := [1]
  rhsContracting := [0]
  lhsNonContracting := [0]
  rhsNonContracting := [1]
  lhsBatch := []
  rhsBatch := []
  wf := dot_S9216x1024_S1024x1024_S9216x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S7168x1024_S1024x1024_S7168x1024_1_0_0_1_n_n : DotDims S7168x1024 S1024x1024 S7168x1024 where
  lhsContracting := [1]
  rhsContracting := [0]
  lhsNonContracting := [0]
  rhsNonContracting := [1]
  lhsBatch := []
  rhsBatch := []
  wf := dot_S7168x1024_S1024x1024_S7168x1024_1_0_0_1_n_n_wf
def dot_S6144x1024_S1024x1024_S6144x1024_1_0_0_1_n_n : DotDims S6144x1024 S1024x1024 S6144x1024 where
  lhsContracting := [1]
  rhsContracting := [0]
  lhsNonContracting := [0]
  rhsNonContracting := [1]
  lhsBatch := []
  rhsBatch := []
  wf := dot_S6144x1024_S1024x1024_S6144x1024_1_0_0_1_n_n_wf
def dot_S5632x1024_S1024x1024_S5632x1024_1_0_0_1_n_n : DotDims S5632x1024 S1024x1024 S5632x1024 where
  lhsContracting := [1]
  rhsContracting := [0]
  lhsNonContracting := [0]
  rhsNonContracting := [1]
  lhsBatch := []
  rhsBatch := []
  wf := dot_S5632x1024_S1024x1024_S5632x1024_1_0_0_1_n_n_wf

class Facts : Prop extends Facts₀ where

variable [Facts]
-- ==== Proof.TableBits.lean ====
/-
  The table of tile owners, for the kernel as printed (read at the word-level instance). Before it launches the kernel
  the program writes a constant table of 129 words into scalar memory: word t is the group (0‥7) that owns row tile t.
  The kernel's second window reads it: at grid point t its block is matrix table[t] of the eight. Whatever the launch
  memory holds, the table the region finds is that constant (tbl_eq), and every word of it is below 8, which is the
  side condition the window's blocks need to lie inside the [8, 1024, 1024] array (ok).
-/
import proofs.«132454_j8942121910611_1_alg».proof.Proof.Gen.Kernel.Frame
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The region finds the constant table, whatever the launch memory held there. -/
theorem tbl_eq : (tbl m 0 : S129.Idx → BitVec 32) = fun i => lit0 (S129.rowMajor i) := by
  show V m 0 main_call0_c = _
  dsimp only [V, hostOps0]
  after_results
  rfl

/-- Every word of the table names one of the eight matrices. -/
theorem lit_lt : ∀ j : Fin 129, (lit0 j).toNat < 8 := by decide +kernel

/-- THE SIDE CONDITION of the table-indexed window: block (table[t], 0, 0) of [1, 1024, 1024] lies inside [8, 1024, 1024]. -/
theorem ok : Ok m := by
  intro i
  obtain ⟨w, hw, e⟩ : ∃ w : BitVec 32, w.toNat < 8 ∧ cc0_transform_1 k0_off1_inb numel1_S1 (tbl m) i = ![w.toNat, 0, 0] :=
    ⟨_, (congrArg BitVec.toNat (congrFun (tbl_eq m) _)).trans_lt (lit_lt _), rfl⟩
  refine ⟨fun a => ?_, Or.inl rfl⟩
  rw [e]
  fin_cases a <;> simp [S1x1024x1024, S8x1024x1024] <;> omega

end Cert.Kernel.Table

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.Grouped.lean ====
/-
  A grouped matrix product. The 66048 rows of a are cut, in order, into eight groups of
  12288, 10240, 9216, 8192, 7168, 7168, 6144 and 5632 rows; the rows of group e are multiplied by the matrix b[e]:

      out[r, n] = ∑ₖ a[r, k] · b[e(r), k, n],      e(r) the group that holds row r.

  Every group's size is a multiple of 512, so a tile of 512 consecutive rows that starts at a multiple of 512 lies in
  one group: tiles 0‥23 in group 0, 24‥43 in group 1, 44‥61 in 2, 62‥77 in 3, 78‥91 in 4, 92‥105 in 5, 106‥117 in 6 and
  118‥128 in 7. The group of a row is the group of its tile, r / 512.

  This module states that function (G), the arithmetic between rows, tiles and groups, and the two ways a program
  spells one group's product at an entry: a slice of the rows [off, off + M) of a against the e-th matrix cut out
  of b and re-read as a rank-two array (product_of_slices), and a 512-row block against a [1, 1024, 1024] block re-read
  the same way, both rounded to a narrower format first, into a zero accumulator (product_of_blocks). Over the extended
  reals a change of format is the identity and both are the sum over the shared axis.
-/
import Idealize.ShloMosaic.Lib.ValueIdx
import Idealize.ShloMosaic.Lib.Pipeline.Value
import Idealize.ShloMosaic.PureOps.Ideal.Laws
import proofs.«132454_j8942121910611_1_alg».proof.Proof.LibRowBlock

noncomputable section

namespace Cert.Grouped

open Idealize.ShloMosaic Idealize.ShloMosaic.ValueIdx

/-- The group that owns row tile t (512 rows each). -/
def tileGroup (t : Nat) : Nat :=
  if t < 24 then 0 else if t < 44 then 1 else if t < 62 then 2 else if t < 78 then 3
  else if t < 92 then 4 else if t < 106 then 5 else if t < 118 then 6 else 7

theorem tileGroup_lt (t : Nat) : tileGroup t < 8 := by
  unfold tileGroup
  repeat' split
  all_goals omega

/-- Which tiles each group owns: group 0 the tiles 0‥23, group 1 the tiles 24‥43, and so on. -/
theorem tileGroup_spec (t : Nat) :
    (tileGroup t = 0 ∧ t < 24) ∨ (tileGroup t = 1 ∧ 24 ≤ t ∧ t < 44) ∨ (tileGroup t = 2 ∧ 44 ≤ t ∧ t < 62)
    ∨ (tileGroup t = 3 ∧ 62 ≤ t ∧ t < 78) ∨ (tileGroup t = 4 ∧ 78 ≤ t ∧ t < 92) ∨ (tileGroup t = 5 ∧ 92 ≤ t ∧ t < 106)
    ∨ (tileGroup t = 6 ∧ 106 ≤ t ∧ t < 118) ∨ (tileGroup t = 7 ∧ 118 ≤ t) := by
  unfold tileGroup
  repeat' split
  all_goals omega

/-- The group that owns row r: its tile's. -/
def rowGroup (r : Fin 66048) : Fin 8 := ⟨tileGroup (r.val / 512), tileGroup_lt _⟩

theorem rowGroup_val (r : Fin 66048) : (rowGroup r).val = tileGroup (r.val / 512) := rfl

/-- THE RESULT: entry (r, n) is row r of a against column n of the matrix of r's group. -/
def G (a : (⟨2, ![66048, 1024]⟩ : Shape).Idx → EReal) (b : (⟨3, ![8, 1024, 1024]⟩ : Shape).Idx → EReal) :
    (⟨2, ![66048, 1024]⟩ : Shape).Idx → EReal :=
  fun i => ∑ k : Fin 1024, a (ix2 (n0 := 66048) ⟨(i 0).val, (i 0).isLt⟩ k)
    * b (ix3 (rowGroup ⟨(i 0).val, (i 0).isLt⟩) k (⟨(i 1).val, (i 1).isLt⟩ : Fin 1024))

theorem G_apply (a : (⟨2, ![66048, 1024]⟩ : Shape).Idx → EReal) (b : (⟨3, ![8, 1024, 1024]⟩ : Shape).Idx → EReal)
    (r : Fin 66048) (n : Fin 1024) : G a b (ix2 r n) = ∑ k : Fin 1024, a (ix2 r k) * b (ix3 (rowGroup r) k n) := rfl

/-- The e-th matrix of b, cut out as a [1, 1024, 1024] array and re-read as [1024, 1024], at entry (k, n). -/
theorem matrix_of_slice (e : Nat) (b : (⟨3, ![8, 1024, 1024]⟩ : Shape).Idx → EReal)
    (hb : (⟨3, ![8, 1024, 1024]⟩ : Shape).Slices ![e, 0, 0] ⟨3, ![1, 1024, 1024]⟩)
    (hc : (⟨3, ![1, 1024, 1024]⟩ : Shape).ShapeCasts ⟨2, ![1024, 1024]⟩) (k n : Fin 1024) (ee : Fin 8) (he : ee.val = e) :
    shapeCast ⟨2, ![1024, 1024]⟩ (extractStridedSlice ⟨3, ![1, 1024, 1024]⟩ ![e, 0, 0] b hb) hc (ix2 k n) = b (ix3 ee k n) := by
  refine (shapeCast_apply _ hc (ix2 k n) (ix3 (0 : Fin 1) k n) ?_).trans ?_
  · rw [Shape.rowMajor_val_three, Shape.rowMajor_val_two]
    show ((0 : Nat) * 1024 + k.val) * 1024 + n.val = k.val * 1024 + n.val
    omega
  · exact extractStridedSlice_apply _ b hb (ix3 (0 : Fin 1) k n) (ix3 ee k n) (fun x => match x with
      | ⟨0, _⟩ => by show ee.val = e + 0; omega
      | ⟨1, _⟩ => by show k.val = 0 + k.val; omega
      | ⟨2, _⟩ => by show n.val = 0 + n.val; omega)

/-- A [1, 1024, 1024] block re-read as [1024, 1024], at entry (k, n). -/
theorem matrix_of_block (v : (⟨3, ![1, 1024, 1024]⟩ : Shape).Idx → EReal)
    (hc : (⟨3, ![1, 1024, 1024]⟩ : Shape).ShapeCasts ⟨2, ![1024, 1024]⟩) (k n : Fin 1024) :
    shapeCast ⟨2, ![1024, 1024]⟩ v hc (ix2 k n) = v (ix3 (0 : Fin 1) k n) := by
  refine shapeCast_apply _ hc (ix2 k n) (ix3 (0 : Fin 1) k n) ?_
  rw [Shape.rowMajor_val_three, Shape.rowMajor_val_two]
  show ((0 : Nat) * 1024 + k.val) * 1024 + n.val = k.val * 1024 + n.val
  omega

/-- ONE GROUP THE HOST'S WAY: rows [off, off + M) of a against the e-th matrix of b; entry (r', n) is row
    off + r' of a against column n of b[e]. -/
theorem product_of_slices {M : Nat} (off e : Nat)
    (hs : (⟨2, ![66048, 1024]⟩ : Shape).Slices ![off, 0] ⟨2, ![M, 1024]⟩)
    (hb : (⟨3, ![8, 1024, 1024]⟩ : Shape).Slices ![e, 0, 0] ⟨3, ![1, 1024, 1024]⟩)
    (hc : (⟨3, ![1, 1024, 1024]⟩ : Shape).ShapeCasts ⟨2, ![1024, 1024]⟩)
    (D : DotDims ⟨2, ![M, 1024]⟩ ⟨2, ![1024, 1024]⟩ ⟨2, ![M, 1024]⟩) (hD : Cert.RowBlock.IsRows.Plain D 1 0 0 1)
    (a : FVec Ideal ⟨2, ![66048, 1024]⟩ .f32) (b : FVec Ideal ⟨3, ![8, 1024, 1024]⟩ .f32)
    (r' : Fin M) (n : Fin 1024) (r : Fin 66048) (hr : r.val = off + r'.val) (ee : Fin 8) (he : ee.val = e) :
    Host.dotGeneral D none (extractStridedSlice ⟨2, ![M, 1024]⟩ ![off, 0] a hs)
        (shapeCast ⟨2, ![1024, 1024]⟩ (extractStridedSlice ⟨3, ![1, 1024, 1024]⟩ ![e, 0, 0] b hb) hc) (ix2 r' n)
      = ∑ k : Fin 1024, a (ix2 r k) * b (ix3 ee k n) := by
  simp only [Host.dotGeneral]
  rw [Ideal.dotGeneral_apply, Cert.RowBlock.IsRows.dot_plain_sum D hD]
  refine Finset.sum_congr rfl fun k _ => ?_
  rw [matrix_of_slice e b hb hc k n ee he]
  refine congrArg (· * b (ix3 ee k n)) ?_
  exact extractStridedSlice_apply _ a hs (ix2 r' k) (ix2 r k) (fun x => match x with
    | ⟨0, _⟩ => hr
    | ⟨1, _⟩ => by show k.val = 0 + k.val; omega)

/-- ONE TILE THE KERNEL'S WAY: a [512, 1024] block against a [1, 1024, 1024] block re-read as a matrix, both
    rounded to a narrower format (the identity here), into a zero accumulator: entry (p, n) is row p of the first
    against column n of the second. -/
theorem product_of_blocks {ψ : FTy} (h1 : ψ.bits < FTy.bits .f32)
    (hc : (⟨3, ![1, 1024, 1024]⟩ : Shape).ShapeCasts ⟨2, ![1024, 1024]⟩)
    (d : DotDims ⟨2, ![512, 1024]⟩ ⟨2, ![1024, 1024]⟩ ⟨2, ![512, 1024]⟩) (hd : Cert.RowBlock.IsRows.Plain d 1 0 0 1)
    (x : FVec Ideal ⟨2, ![512, 1024]⟩ .f32) (v : FVec Ideal ⟨3, ![1, 1024, 1024]⟩ .f32) (p : Fin 512) (n : Fin 1024) :
    matmul d none (truncf ψ x h1) (truncf ψ (shapeCast ⟨2, ![1024, 1024]⟩ v hc) h1)
        (constant ⟨2, ![512, 1024]⟩ .f32 0x00000000#32) (ix2 p n)
      = ∑ k : Fin 1024, x (ix2 p k) * v (ix3 (0 : Fin 1) k n) := by
  simp only [matmul]
  rw [Ideal.matmul_constant_zero_apply, Cert.RowBlock.IsRows.dot_plain_sum d hd]
  refine Finset.sum_congr rfl fun k _ => ?_
  rw [truncf_apply, truncf_apply, matrix_of_block v hc k n]

end Cert.Grouped

end
-- ==== Proof.TableIdeal.lean ====
/-
  The table of tile owners. Before it launches the kernel the program writes a constant table of 129 words into scalar
  memory: word t is the group (0‥7) that owns row tile t. The kernel's second window reads it: at grid point t its
  block is matrix table[t] of the eight. So, whatever the launch memory holds, the table the region finds is that
  constant (tbl_eq); every word of it is below 8, which is the side condition the window's blocks need to lie inside
  the [8, 1024, 1024] array (ok); and word t is the owner of tile t in the sense of the row arithmetic (lit_group).
-/
import proofs.«132454_j8942121910611_1_alg».proof.Proof.Gen.KernelIdeal.Frame
import proofs.«132454_j8942121910611_1_alg».proof.Proof.Grouped
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The region finds the constant table, whatever the launch memory held there. -/
theorem tbl_eq : (tbl m 0 : S129.Idx → BitVec 32) = fun i => lit0 (S129.rowMajor i) := by
  show V m 0 main_call0_c = _
  dsimp only [V, hostOps0]
  after_results
  rfl

/-- Every word of the table names one of the eight matrices. -/
theorem lit_lt : ∀ j : Fin 129, (lit0 j).toNat < 8 := by decide +kernel

/-- Word t of the table is the group that owns row tile t. -/
theorem lit_group : ∀ j : Fin 129, (lit0 j).toNat = Cert.Grouped.tileGroup j.val := by decide +kernel

/-- THE SIDE CONDITION of the table-indexed window: block (table[t], 0, 0) of [1, 1024, 1024] lies inside [8, 1024, 1024]. -/
theorem ok : Ok m := by
  intro i
  obtain ⟨w, hw, e⟩ : ∃ w : BitVec 32, w.toNat < 8 ∧ cc0_transform_1 k0_off1_inb numel1_S1 (tbl m) i = ![w.toNat, 0, 0] :=
    ⟨_, (congrArg BitVec.toNat (congrFun (tbl_eq m) _)).trans_lt (lit_lt _), rfl⟩
  refine ⟨fun a => ?_, Or.inl rfl⟩
  rw [e]
  fin_cases a <;> simp [S1x1024x1024, S8x1024x1024] <;> omega

end Cert.KernelIdeal.Table

end
-- ==== Proof.Tiles.lean ====
/-
  What the kernel's result array holds after the run, over the extended reals.

  The grid has 129 points, one per tile of 512 rows. At point t the body loads rows [512 t, 512 t + 512) of a (the
  first window's block), the matrix b[table[t]] (the second window's block, chosen by the prefetched table), multiplies
  the two into a zero accumulator and stores the product over the whole output block, which is written back to rows
  [512 t, 512 t + 512) of the result. So what point t writes back is block t of the grouped product G of the two
  arrays (table[t] is the owner of tile t, hence of each of its rows), the 129 blocks tile the result array, and the
  array ends holding G.
-/
import proofs.«132454_j8942121910611_1_alg».proof.Proof.Gen.KernelIdeal.Frame
import proofs.«132454_j8942121910611_1_alg».proof.Proof.TableIdeal
import proofs.«132454_j8942121910611_1_alg».proof.Proof.Grouped
import Idealize.ShloMosaic.Lib.Pipeline.Value
import Idealize.ShloMosaic.Lib.Tactic

set_option maxRecDepth 16384

noncomputable section

namespace Cert.KernelIdeal.Tiles

open Cert.KernelIdeal Cert.KernelIdeal.Gen Cert.Grouped
open Idealize.ShloMosaic Idealize.ShloMosaic.TcCoe Idealize.SL.Sem Idealize.ShloMosaic.ValueIdx Idealize.ShloMosaic.Tactic
open Idealize.ShloMosaic.Pipeline (Dat)

/-! ## The body: one covering store of the product of the two loaded blocks -/

section Body
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output's staging buffer after the body holds the product of the loaded blocks (what it held before, which the
    body also loads, is not used). -/
theorem out_eq (c : Dev nD) (i : grid0.Coords) (a2 : Memref sig .tc .vmem S512x1024 .f32) (h2 : a2.IsWhole)
    (a3 : Memref sig .tc .vmem S1x1024x1024 .f32) (h3 : a3.IsWhole) (a4 : Memref sig .tc .vmem S512x1024 .f32) (h4 : a4.IsWhole)
    (x0 : Vec F S512x1024 .f32) (x1 : Vec F S1x1024x1024 .f32) (xt0 : TbBuf0 (F := F) c tbM0_0) :
    out0_A_2 c i a2 h2 a3 h3 a4 h4 x0 x1 xt0 = k0_pay1 x0 x1 := by
  unfold out0_A_2
  rw [View.read_writes_eq_canon _ _ _ (cover0_A_2 c i a2 h2 a3 h3 a4 h4 x0 x1 xt0)]
  unfold kernelRun0_A
  dsimp only
  sl_unfold_words
  rw [View.canon_unit_zero hz2]
  simp only [View.readAt_eq_ld, h2.read_unread, h3.read_unread, View.ld_unit_zero (S := S512x1024) hz2,
    View.ld_unit_zero (S := S1x1024x1024) hz3]

end Body

/-- The product at an entry: row p of the first block against column n of the second. -/
theorem pay_apply (x0 : Vec Ideal S512x1024 .f32) (x1 : Vec Ideal S1x1024x1024 .f32) (p : Fin 512) (n : Fin 1024) :
    k0_pay1 x0 x1 (ix2 p n) = ∑ k : Fin 1024, x0 (ix2 p k) * x1 (ix3 (0 : Fin 1) k n) := by
  unfold k0_pay1
  exact product_of_blocks _ _ _ ⟨rfl, rfl, rfl, rfl, rfl, rfl⟩ x0 x1 p n

/-! ## The windows at a grid point -/

variable (m : (ℓ : Loc nD τ sig) → Buf (Elt Ideal) ℓ) (ρ : Dev nD → PrngReg)

/-- The first and third windows' block index at point t is (t, 0). -/
theorem idx_rows : ∀ t : Fin grid0.N, cc0_transform_0 (grid0.coords t) = ![t.val, 0] ∧ cc0_transform_2 (grid0.coords t) = ![t.val, 0] := by
  decide +kernel

/-- The second window's block index at point t is (owner of tile t, 0, 0): the table's word t. -/
theorem idx_matrix (t : Fin grid0.N) :
    cc0_transform_1 k0_off1_inb numel1_S1 (tbl m) (grid0.coords t) = ![tileGroup t.val, 0, 0] := by
  have key : ∀ j : S129.Idx, (S129.rowMajor j).val = t.val → (tbl m 0 j).toNat = tileGroup t.val := fun j hj =>
    (congrArg BitVec.toNat (congrFun (Cert.KernelIdeal.Table.tbl_eq m) j)).trans
      ((Cert.KernelIdeal.Table.lit_group (S129.rowMajor j)).trans (congrArg tileGroup hj))
  obtain ⟨j, hj, e⟩ : ∃ j : S129.Idx, (S129.rowMajor j).val = t.val
      ∧ cc0_transform_1 k0_off1_inb numel1_S1 (tbl m) (grid0.coords t) = ![(tbl m 0 j).toNat, 0, 0] := by
    refine ⟨_, ?_, rfl⟩
    clear key
    revert t
    decide +kernel
  rw [e, key j hj]

/-! ## The blocks the body is handed at point t -/

theorem N_eq (hO : Ok m) : (cfgM m hO).N = 129 := N_0

/-- The first window's block at point t is rows [512 t, 512 t + 512) of a. -/
theorem ablk_apply (hO : Ok m) (c : Dev nD) (t : Fin (cfgM m hO).N) (p : Fin 512) (k : Fin 1024) (r : Fin 66048)
    (hr : r.val = 512 * t.val + p.val) :
    (iblk m hO c 0 t : Vec Ideal S512x1024 .f32) (ix2 p k) = V m c main_arg0 (ix2 r k) := by
  show V m c main_arg0 ((((cfgM m hO).win 0).blk t).view.emb (ix2 p k)) = V m c main_arg0 (ix2 r k)
  congr 1
  funext x
  apply Fin.ext
  have e := (idx_rows t).1
  match x with
  | ⟨0, _⟩ =>
    show cc0_transform_0 (grid0.coords t) 0 * 512 + 1 * p.val = r.val
    rw [e]; show t.val * 512 + 1 * p.val = r.val; omega
  | ⟨1, _⟩ =>
    show cc0_transform_0 (grid0.coords t) 1 * 1024 + 1 * k.val = k.val
    rw [e]; show 0 * 1024 + 1 * k.val = k.val; omega

/-- The second window's block at point t is the matrix of tile t's owner. -/
theorem bblk_apply (hO : Ok m) (c : Dev nD) (t : Fin (cfgM m hO).N) (k n : Fin 1024) (e : Fin 8)
    (he : e.val = tileGroup t.val) :
    (iblk m hO c 1 t : Vec Ideal S1x1024x1024 .f32) (ix3 (0 : Fin 1) k n) = V m c main_arg1 (ix3 e k n) := by
  show V m c main_arg1 ((((cfgM m hO).win 1).blk t).view.emb (ix3 (0 : Fin 1) k n)) = V m c main_arg1 (ix3 e k n)
  congr 1
  funext x
  apply Fin.ext
  have e1 := idx_matrix m t
  match x with
  | ⟨0, _⟩ =>
    show cc0_transform_1 k0_off1_inb numel1_S1 (tbl m) (grid0.coords t) 0 * 1 + 1 * 0 = e.val
    rw [e1]; show tileGroup t.val * 1 + 1 * 0 = e.val; omega
  | ⟨1, _⟩ =>
    show cc0_transform_1 k0_off1_inb numel1_S1 (tbl m) (grid0.coords t) 1 * 1024 + 1 * k.val = k.val
    rw [e1]; show 0 * 1024 + 1 * k.val = k.val; omega
  | ⟨2, _⟩ =>
    show cc0_transform_1 k0_off1_inb numel1_S1 (tbl m) (grid0.coords t) 2 * 1024 + 1 * n.val = n.val
    rw [e1]; show 0 * 1024 + 1 * n.val = n.val; omega

/-- The third window's block at point t sits at rows [512 t, 512 t + 512) of the result. -/
theorem oblk_emb (hO : Ok m) (t : Fin (cfgM m hO).N) (p : Fin 512) (n : Fin 1024) (r : Fin 66048)
    (hr : r.val = 512 * t.val + p.val) :
    (((cfgM m hO).win 2).blk t).view.emb (ix2 p n) = (ix2 r n : S66048x1024.Idx) := by
  funext x
  apply Fin.ext
  have e := (idx_rows t).2
  match x with
  | ⟨0, _⟩ =>
    show cc0_transform_2 (grid0.coords t) 0 * 512 + 1 * p.val = r.val
    rw [e]; show t.val * 512 + 1 * p.val = r.val; omega
  | ⟨1, _⟩ =>
    show cc0_transform_2 (grid0.coords t) 1 * 1024 + 1 * n.val = n.val
    rw [e]; show 0 * 1024 + 1 * n.val = n.val; omega

/-! ## What a point writes back, and the array after the run -/

/-- What the body leaves in the output's staging buffer at point t, entry by entry: the grouped product at the
    entry of the result array that the block's entry is written back to. -/
theorem tile_apply (hO : Ok m) (c : Dev nD) (t : Fin (cfgM m hO).N) (y : S512x1024.Idx) :
    outsAt0 m hO c t y = G (V m c main_arg0) (V m c main_arg1) ((((cfgM m hO).win 2).blk t).view.emb y) := by
  obtain ⟨p, n, rfl⟩ : ∃ (p : Fin 512) (n : Fin 1024), y = ix2 p n := ⟨y 0, y 1, eq_ix2 y⟩
  have ht : t.val < 129 := (N_eq m hO) ▸ t.isLt
  have hp := p.isLt
  have hr : 512 * t.val + p.val < 66048 := by omega
  refine (congrFun (out_eq c (grid0.coords t) (ms0_0 m hO t) (hs0_0 m hO t) (ms0_1 m hO t) (hs0_1 m hO t) (ms0_2 m hO t)
    (hs0_2 m hO t) (iblk m hO c 0 t) (iblk m hO c 1 t) (tbl m 0)) (ix2 p n)).trans ?_
  refine (pay_apply (iblk m hO c 0 t) (iblk m hO c 1 t) p n).trans ?_
  refine Eq.trans ?_ (congrArg (G (V m c main_arg0) (V m c main_arg1)) (oblk_emb m hO t p n ⟨_, hr⟩ rfl).symm)
  rw [G_apply]
  refine Finset.sum_congr rfl fun k _ => ?_
  exact congrArg₂ (· * ·) (ablk_apply m hO c t p k ⟨_, hr⟩ rfl)
    (bblk_apply m hO c t k n (rowGroup ⟨_, hr⟩)
      (by rw [rowGroup_val]; exact congrArg tileGroup (by show (512 * t.val + p.val) / 512 = t.val; omega)))

/-- WHAT POINT t WRITES BACK is block t of the grouped product of the two arrays as the region finds them. -/
theorem flushed_eq (hO : Ok m) (c : Dev nD) (t : Fin (cfgM m hO).N) :
    (dats m hO 0 c).flushed 2 t
      = (((cfgM m hO).win 2).blk t).view.read (Elt Ideal) (G (V m c main_arg0) (V m c main_arg1)) := by
  show ((cfgM m hO).win 2).cut (grid0.coords t) ((dats m hO 0 c).after 2 t) = _
  rw [after0_2]
  funext y
  exact tile_apply m hO c t y

/-- Every entry of the result array lies in the block some point writes back: row r in that of point r / 512. -/
theorem cover (hO : Ok m) (c : Dev nD) (i : S66048x1024.Idx) :
    ∃ t : Fin (cfgM m hO).N, ((cfgM m hO).win 2).flush t = true ∧ i ∈ (((cfgM m hO).win 2).blk t).view.set := by
  have h0 : (i 0 : Nat) < 66048 := (i 0).isLt
  have h1 : (i 1 : Nat) < 1024 := (i 1).isLt
  have hN := N_eq m hO
  let t : Fin (cfgM m hO).N := ⟨(i 0 : Nat) / 512, by rw [hN]; omega⟩
  refine ⟨t, flush0_2 (adm m hO) t, ?_⟩
  show i ∈ ((View.whole main_v0).slice (((cfgM m hO).win 2).rect t)).set
  have hs := View.set_slice_whole main_v0 (((cfgM m hO).win 2).rect t)
  refine (Finset.ext_iff.mp hs i).mpr (Rect.mem_set_unit.mpr fun x => ?_)
  have e := (idx_rows t).2
  match x with
  | ⟨0, _⟩ =>
    show cc0_transform_2 (grid0.coords t) 0 * 512 ≤ (i 0 : Nat) ∧ (i 0 : Nat) < cc0_transform_2 (grid0.coords t) 0 * 512 + 512
    rw [e]; show (i 0 : Nat) / 512 * 512 ≤ (i 0 : Nat) ∧ (i 0 : Nat) < (i 0 : Nat) / 512 * 512 + 512; omega
  | ⟨1, _⟩ =>
    show cc0_transform_2 (grid0.coords t) 1 * 1024 ≤ (i 1 : Nat) ∧ (i 1 : Nat) < cc0_transform_2 (grid0.coords t) 1 * 1024 + 1024
    rw [e]; show 0 * 1024 ≤ (i 1 : Nat) ∧ (i 1 : Nat) < 0 * 1024 + 1024; omega

/-- THE RESULT ARRAY after the run is the grouped product of the two argument arrays. -/
theorem final (hO : Ok m) (c : Dev nD) :
    (dats m hO 0 c).arrAt 2 (cfgM m hO).N = G (m ((c : Thread nD τ).loc main_arg0)) (m ((c : Thread nD τ).loc main_arg1)) := by
  rw [← V_main_arg0 m c, ← V_main_arg1 m c]
  exact (dats m hO 0 c).arrAt_eq_of_cover 2 (G (V m c main_arg0) (V m c main_arg1)) (fun t _ => flushed_eq m hO c t) (cover m hO c)

/-- The run, read: the result array at the grouped product, the arguments unchanged. -/
theorem run (hO : Ok m) : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩)
    (run_main m ρ hO)

end Cert.KernelIdeal.Tiles

end
-- ==== Proof.RefGroups.lean ====
/-
  The reference computes the grouped product group by group: for each of the eight groups it cuts the group's rows
  out of a, cuts matrix e out of b, multiplies, and lays the eight products end to end along the rows. Read at an
  entry (r, n) that concatenation is the piece of the group that holds row r, at row r minus the rows before the group;
  that piece is row r of a against column n of b[e]; and e is the owner of r's tile. So the reference's result is
  the function Cert.Grouped.G of its two arguments.
-/
import proofs.«132454_j8942121910611_1_alg».proof.Proof.Gen.ReferenceIdeal.Read
import proofs.«132454_j8942121910611_1_alg».proof.Proof.Grouped

set_option maxRecDepth 16384

noncomputable section

namespace Cert.ReferenceIdeal.Groups

open Cert.ReferenceIdeal Cert.ReferenceIdeal.Gen Cert.ReferenceIdeal.Read
open Idealize.ShloMosaic Idealize.ShloMosaic.ValueIdx Cert.Grouped

variable (a : FVec Ideal S66048x1024 .f32) (b : FVec Ideal S8x1024x1024 .f32)

/-- Where piece k of a concatenation along the rows is group e's product of the rows [off, off + M), the
    concatenation at a row r of that range is G's entry, e being the owner of r. -/
theorem group_rows {M : Nat} (xs : List ((s : Shape) × (s.Idx → Elt Ideal .f32)))
    (h : Shape.Concatenates (xs.map (·.1)) S66048x1024 0) (k : Nat) (hk : k < xs.length) (off e : Nat)
    (hs : S66048x1024.Slices ![off, 0] ⟨2, ![M, 1024]⟩) (hb : S8x1024x1024.Slices ![e, 0, 0] S1x1024x1024)
    (hc : S1x1024x1024.ShapeCasts S1024x1024)
    (D : DotDims ⟨2, ![M, 1024]⟩ S1024x1024 ⟨2, ![M, 1024]⟩) (hD : Cert.RowBlock.IsRows.Plain D 1 0 0 1)
    (hxk : xs[k] = ⟨⟨2, ![M, 1024]⟩, Host.dotGeneral (F := Ideal) D none (extractStridedSlice ⟨2, ![M, 1024]⟩ ![off, 0] a hs)
      (shapeCast S1024x1024 (extractStridedSlice S1x1024x1024 ![e, 0, 0] b hb) hc)⟩)
    (hpre : (((xs.take k).map (·.1)).map fun s => if h : s.rank = S66048x1024.rank
      then s.size ((0 : Fin S66048x1024.rank).cast h.symm) else 0).sum = off)
    (r : Fin 66048) (n : Fin 1024) (hlo : off ≤ r.val) (hhi : r.val < off + M) (hg : (rowGroup r).val = e) :
    concatenate S66048x1024 0 xs h (ix2 r n) = G a b (ix2 r n) := by
  rw [G_apply]
  refine (concatenate_apply_piece 0 xs h (ix2 r n) k hk _ _ hxk rfl off hpre
    (ix2 (⟨r.val - off, by omega⟩ : Fin M) n) (fun x hx => ?_) ?_).trans ?_
  · match x with
    | ⟨0, _⟩ => exact absurd rfl hx
    | ⟨1, _⟩ => rfl
  · show off + (r.val - off) = r.val
    omega
  · exact product_of_slices off e hs hb hc D hD a b _ n r (by show r.val = off + (r.val - off); omega) (rowGroup r) hg

/-- THE REFERENCE'S RESULT is the grouped product of its arguments: by the group that holds the row. -/
theorem result_eq : val_main_v32 (F := Ideal) a b = G a b := by
  funext i
  obtain ⟨r, n, rfl⟩ : ∃ (r : Fin 66048) (n : Fin 1024), i = ix2 r n := ⟨i 0, i 1, eq_ix2 i⟩
  have hr := r.isLt
  unfold val_main_v32
  have ht := tileGroup_spec (r.val / 512)
  by_cases c1 : r.val < 12288
  · exact group_rows a b _ _ 0 (by simp) 0 0 _ _ _ _ ⟨rfl, rfl, rfl, rfl, rfl, rfl⟩ rfl rfl r n (by omega) (by omega)
      (by rw [rowGroup_val]; omega)
  by_cases c2 : r.val < 22528
  · exact group_rows a b _ _ 1 (by simp) 12288 1 _ _ _ _ ⟨rfl, rfl, rfl, rfl, rfl, rfl⟩ rfl rfl r n (by omega) (by omega)
      (by rw [rowGroup_val]; omega)
  by_cases c3 : r.val < 31744
  · exact group_rows a b _ _ 2 (by simp) 22528 2 _ _ _ _ ⟨rfl, rfl, rfl, rfl, rfl, rfl⟩ rfl rfl r n (by omega) (by omega)
      (by rw [rowGroup_val]; omega)
  by_cases c4 : r.val < 39936
  · exact group_rows a b _ _ 3 (by simp) 31744 3 _ _ _ _ ⟨rfl, rfl, rfl, rfl, rfl, rfl⟩ rfl (by simp) r n (by omega) (by omega)
      (by rw [rowGroup_val]; omega)
  by_cases c5 : r.val < 47104
  · exact group_rows a b _ _ 4 (by simp) 39936 4 _ _ _ _ ⟨rfl, rfl, rfl, rfl, rfl, rfl⟩ rfl (by simp) r n (by omega) (by omega)
      (by rw [rowGroup_val]; omega)
  by_cases c6 : r.val < 54272
  · exact group_rows a b _ _ 5 (by simp) 47104 5 _ _ _ _ ⟨rfl, rfl, rfl, rfl, rfl, rfl⟩ rfl (by simp) r n (by omega) (by omega)
      (by rw [rowGroup_val]; omega)
  by_cases c7 : r.val < 60416
  · exact group_rows a b _ _ 6 (by simp) 54272 6 _ _ _ _ ⟨rfl, rfl, rfl, rfl, rfl, rfl⟩ rfl (by simp) r n (by omega) (by omega)
      (by rw [rowGroup_val]; omega)
  · exact group_rows a b _ _ 7 (by simp) 60416 7 _ _ _ _ ⟨rfl, rfl, rfl, rfl, rfl, rfl⟩ rfl (by simp) r n (by omega) (by omega)
      (by rw [rowGroup_val]; omega)

end Cert.ReferenceIdeal.Groups

end
-- ==== Proof.lean ====
/-
  A grouped matrix product on a grid of row tiles against the same product written group by group.

  The 66048 rows of a are cut, in order, into eight groups (12288, 10240, 9216, 8192, 7168, 7168, 6144, 5632 rows), and
  the rows of group e are multiplied by the matrix b[e]. The kernel runs a grid of 129 tiles of 512 rows; since every
  group's size is a multiple of 512, each tile lies in one group, and a constant table, prefetched into scalar memory,
  tells the second window which of the eight matrices to fetch at each grid point. The body rounds both blocks to a
  narrower float format, multiplies them into a zero accumulator and stores the product. The reference cuts each group's
  rows and matrix out, multiplies, and concatenates.

  Over the extended reals a change of float format is the identity, a product into a zero accumulator and the host's
  product are the same sum over the shared axis, so both programs compute out[r, n] = ∑ₖ a[r, k] · b[e(r), k, n] with
  e(r) the owner of row r (Proof/Grouped.lean's G): the kernel's result array by what each point writes back and the
  cover of the array by the 129 blocks (Proof/Tiles.lean), the reference's by reading the concatenation at an entry
  (Proof/RefGroups.lean). No algebraic law beyond that is used, so the finiteness of the inputs is not needed. The
  frames of the two kernel programs hold under the side condition that every word of the table names one of the eight
  matrices; the table is a constant of the program, so the condition holds outright (Proof/TableBits.lean,
  Proof/TableIdeal.lean). The idealization rewrote nothing.
-/
import proofs.«132454_j8942121910611_1_alg».proof.Defs
import proofs.«132454_j8942121910611_1_alg».proof.Proof.Gen.Kernel
import proofs.«132454_j8942121910611_1_alg».proof.Proof.Gen.Kernel.Skeleton
import proofs.«132454_j8942121910611_1_alg».proof.Proof.Gen.Kernel.Launch
import proofs.«132454_j8942121910611_1_alg».proof.Proof.Gen.Kernel.Points
import proofs.«132454_j8942121910611_1_alg».proof.Proof.Gen.Kernel.Frame
import proofs.«132454_j8942121910611_1_alg».proof.Proof.Gen.KernelIdeal
import proofs.«132454_j8942121910611_1_alg».proof.Proof.Gen.KernelIdeal.Skeleton
import proofs.«132454_j8942121910611_1_alg».proof.Proof.Gen.KernelIdeal.Launch
import proofs.«132454_j8942121910611_1_alg».proof.Proof.Gen.KernelIdeal.Points
import proofs.«132454_j8942121910611_1_alg».proof.Proof.Gen.KernelIdeal.Frame
import proofs.«132454_j8942121910611_1_alg».proof.Proof.Gen.ReferenceIdeal
import proofs.«132454_j8942121910611_1_alg».proof.Proof.Gen.ReferenceIdeal.Run
import proofs.«132454_j8942121910611_1_alg».proof.Proof.Gen.ReferenceIdeal.Read
import proofs.«132454_j8942121910611_1_alg».proof.Proof.Gen.Pre_finite_inputs
import proofs.«132454_j8942121910611_1_alg».proof.Proof.TableBits
import proofs.«132454_j8942121910611_1_alg».proof.Proof.TableIdeal
import proofs.«132454_j8942121910611_1_alg».proof.Proof.Tiles
import proofs.«132454_j8942121910611_1_alg».proof.Proof.RefGroups
import Idealize.ShloMosaic.Adequacy
import Idealize.ShloMosaic.Init

noncomputable section

namespace Cert.Proof

open Idealize.ShloMosaic Idealize.SL.Sem

/-- The kernel as printed runs and leaves its arguments: the generated frame, the table's words below 8. -/
theorem frame_k : Cert.frame_Kernel := fun m ρ _ => Cert.Kernel.Gen.frame m ρ (Cert.Kernel.Table.ok m)

/-- The same for the kernel read over the extended reals. -/
theorem frame_ki : Cert.frame_KernelIdeal := fun m ρ _ => Cert.KernelIdeal.Gen.frame m ρ (Cert.KernelIdeal.Table.ok m)

/-- The reference runs and leaves its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the grouped product of the arguments: the kernel's result array (Tiles.run) and the
    reference's concatenation (RefGroups.result_eq), of arguments that agree. -/
theorem algebraic : Cert.algebraic_KernelIdeal_ReferenceIdeal := by
  intro m ρ m' ρ' _ hagree
  refine ⟨fun c => Cert.Grouped.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Tiles.run m ρ (Cert.KernelIdeal.Table.ok m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Groups.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
